-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x64 : Shape := ⟨3, ![128, 8192, 64]⟩
abbrev S128x6 : Shape := ⟨2, ![128, 6]⟩
abbrev S32x6 : Shape := ⟨2, ![32, 6]⟩
abbrev S32 : Shape := ⟨1, ![32]⟩
abbrev S4096x32 : Shape := ⟨2, ![4096, 32]⟩
abbrev S4096 : Shape := ⟨1, ![4096]⟩
abbrev S64x6 : Shape := ⟨2, ![64, 6]⟩
abbrev S64 : Shape := ⟨1, ![64]⟩
abbrev S_ : Shape := ⟨0, ![]⟩

class Facts : Prop where
  bcast_S_S128x8192x64 : S_.BroadcastsInDim S128x8192x64 (![] : Fin 0 → Fin S128x8192x64.rank)
  reducesTo_S128x8192x64_S_d0_1_2 : S128x8192x64.ReducesTo [0, 1, 2] S_
  h_S_ : 0 < S_.numel
  bcast_S_S128x6 : S_.BroadcastsInDim S128x6 (![] : Fin 0 → Fin S128x6.rank)
  reducesTo_S128x6_S_d0_1 : S128x6.ReducesTo [0, 1] S_
  bcast_S_S32x6 : S_.BroadcastsInDim S32x6 (![] : Fin 0 → Fin S32x6.rank)
  reducesTo_S32x6_S_d0_1 : S32x6.ReducesTo [0, 1] S_
  bcast_S_S32 : S_.BroadcastsInDim S32 (![] : Fin 0 → Fin S32.rank)
  reducesTo_S32_S_d0 : S32.ReducesTo [0] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S4096x32 .f32) (main_arg5 : FVec F S4096 .f32) (main_arg6 : FVec F S64x6 .f32) (main_arg7 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S64x6 .f32 := Host.absf main_arg6
  let main_cst_10 : FVec F S_ .f32 := constant S_ .f32 0x7F800000#32
  let main_v30 : FVec F S64x6 .f32 := broadcastInDim S64x6 ![] bcast_S_S64x6 main_cst_10
  let main_v31 : IVec S64x6 1 := cmpf .olt main_v29 main_v30
  let main_c_11 : IVec S_ 1 := constantI S_ 1 1#1
  let main_v32 : IVec S_ 1 := (fun x v => Host.reduce IntOp.andi x v reducesTo_S64x6_S_d0_1 h_S_) main_v31 main_c_11
  let main_v33 : IVec S_ 1 := andi main_v28 main_v32
  fn_part2 (F := F) main_arg7 main_v33

def fn {F : FTy → Type} [FloatOps F] (main_arg0 : FVec F S128x8192x64 .f32) (main_arg1 : FVec F S128x6 .f32) (main_arg2 : FVec F S32x6 .f32) (main_arg3 : FVec F S32 .f32) (main_arg4 : FVec F S4096x32 .f32) (main_arg5 : FVec F S4096 .f32) (main_arg6 : FVec F S64x6 .f32) (main_arg7 : FVec F S64 .f32) : IVec S_ 1 :=
  let main_v0 : FVec F S128x8192x64 .f32 := Host.absf main_arg0
  let main_cst : FVec F S_ .f32 := constant S_ .f32 0x7F800000#32
  let main_v1 : FVec F S128x8192x64 .f32 := broadcastInDim S128x8192x64 ![] bcast_S_S128x8192x64 main_cst
  let main_v2 : IVec S128x8192x64 1 := cmpf .olt main_v0 main_v1
  let main_c : IVec S_ 1 := constantI S_ 1 1#1
  let main_v3 : IVec S_ 1 := (fun x v => Host.reduce IntOp.andi x v reducesTo_S128x8192x64_S_d0_1_2 h_S_) main_v2 main_c
  let main_v4 : FVec F S128x6 .f32 := Host.absf main_arg1
  let main_cst_0 : FVec F S_ .f32 := constant S_ .f32 0x7F800000#32
  let main_v5 : FVec F S128x6 .f32 := broadcastInDim S128x6 ![] bcast_S_S128x6 main_cst_0
  let main_v6 : IVec S128x6 1 := cmpf .olt main_v4 main_v5
  let main_c_1 : IVec S_ 1 := constantI S_ 1 1#1
  let main_v7 : IVec S_ 1 := (fun x v => Host.reduce IntOp.andi x v reducesTo_S128x6_S_d0_1 h_S_) main_v6 main_c_1
  let main_v8 : IVec S_ 1 := andi main_v3 main_v7
  let main_v9 : FVec F S32x6 .f32 := Host.absf main_arg2
  let main_cst_2 : FVec F S_ .f32 := constant S_ .f32 0x7F800000#32
  let main_v10 : FVec F S32x6 .f32 := broadcastInDim S32x6 ![] bcast_S_S32x6 main_cst_2
  let main_v11 : IVec S32x6 1 := cmpf .olt main_v9 main_v10
  let main_c_3 : IVec S_ 1 := constantI S_ 1 1#1
  let main_v12 : IVec S_ 1 := (fun x v => Host.reduce IntOp.andi x v reducesTo_S32x6_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S128x8192x64 : Shape := ⟨3, ![128, 8192, 64]⟩
abbrev S128x6 : Shape := ⟨2, ![128, 6]⟩
abbrev S32x6 : Shape := ⟨2, ![32, 6]⟩
abbrev S32 : Shape := ⟨1, ![32]⟩
abbrev S4096x32 : Shape := ⟨2, ![4096, 32]⟩
abbrev S4096 : Shape := ⟨1, ![4096]⟩
abbrev S64x6 : Shape := ⟨2, ![64, 6]⟩
abbrev S64 : Shape := ⟨1, ![64]⟩
abbrev S6x32 : Shape := ⟨2, ![6, 32]⟩
abbrev S128x32 : Shape := ⟨2, ![128, 32]⟩
abbrev S1x32 : Shape := ⟨2, ![1, 32]⟩
abbrev S_ : Shape := ⟨0, ![]⟩
abbrev S32x4096 : Shape := ⟨2, ![32, 4096]⟩
abbrev S128x4096 : Shape := ⟨2, ![128, 4096]⟩
abbrev S1x4096 : Shape := ⟨2, ![1, 4096]⟩
abbrev S128x64x64 : Shape := ⟨3, ![128, 64, 64]⟩
abbrev S6x64 : Shape := ⟨2, ![6, 64]⟩
abbrev S128x64 : Shape := ⟨2, ![128, 64]⟩
abbrev S1x64 : Shape := ⟨2, ![1, 64]⟩
abbrev S128x1x64 : Shape := ⟨3, ![128, 1, 64]⟩
abbrev S1x8192x64 : Shape := ⟨3, ![1, 8192, 64]⟩
abbrev S1x64x64 : Shape := ⟨3, ![1, 64, 64]⟩
abbrev S1x1x64 : Shape := ⟨3, ![1, 1, 64]⟩
abbrev S8192x64 : Shape := ⟨2, ![8192, 64]⟩
abbrev S64x64 : Shape := ⟨2, ![64, 64]⟩

abbrev nBuf : Space → Nat
  | .hbm => 29
  | .vmem => 8
  | .smem => 0
  | _ => 0

abbrev bufTy : (tb : Table) → Fin (tcTables nBuf tb) → BufTy
  | .hbm, ⟨0, _⟩ => ⟨S128x8192x64, .f32⟩
  | .hbm, ⟨1, _⟩ => ⟨S128x6, .f32⟩
  | .hbm, ⟨2, _⟩ => ⟨S32x6, .f32⟩
  | .hbm, ⟨3, _⟩ => ⟨S32, .f32⟩
  | .hbm, ⟨4, _⟩ => ⟨S4096x32, .f32⟩
  | .hbm, ⟨5, _⟩ => ⟨S4096, .f32⟩
  | .hbm, ⟨6, _⟩ => ⟨S64x6, .f32⟩
  | .hbm, ⟨7, _⟩ => ⟨S64, .f32⟩
  | .hbm, ⟨8, _⟩ => ⟨S6x32, .f32⟩
  | .hbm, ⟨9, _⟩ => ⟨S128x32, .f32⟩
  | .hbm, ⟨10, _⟩ => ⟨S1x32, .f32⟩
  | .hbm, ⟨11, _⟩ => ⟨S128x32, .f32⟩
  | .hbm, ⟨12, _⟩ => ⟨S128x32, .f32⟩
  | .hbm, ⟨13, _⟩ => ⟨S_, .f32⟩
  | .hbm, ⟨14, _⟩ => ⟨S128x32, .f32⟩
  | .hbm, ⟨15, _⟩ => ⟨S128x32, .f32⟩
  | .hbm, ⟨16, _⟩ => ⟨S32x4096, .f32⟩
  | .hbm, ⟨17, _⟩ => ⟨S128x4096, .f32⟩
  | .hbm, ⟨18, _⟩ => ⟨S1x4096, .f32⟩
  | .hbm, ⟨19, _⟩ => ⟨S128x4096, .f32⟩
  | .hbm, ⟨20, _⟩ => ⟨S128x4096, .f32⟩
  | .hbm, ⟨21, _⟩ => ⟨S128x64x64, .f32⟩
  | .hbm, ⟨22, _⟩ => ⟨S6x64, .f32⟩
  | .hbm, ⟨23, _⟩ => ⟨S128x64, .f32⟩
  | .hbm, ⟨24, _⟩ => ⟨S1x64, .f32⟩
  | .hbm, ⟨25, _⟩ => ⟨S128x64, .f32⟩
  | .hbm, ⟨26, _⟩ => ⟨S128x64, .f32⟩
  | .hbm, ⟨27, _⟩ => ⟨S128x1x64, .f32⟩
  | .hbm, ⟨28, _⟩ => ⟨S128x8192x64, .f32⟩
  | .local _ .vmem, ⟨0, _⟩ => ⟨S1x8192x64, .f32⟩
  | .local _ .vmem, ⟨1, _⟩ => ⟨S1x8192x64, .f32⟩
  | .local _ .vmem, ⟨2, _⟩ => ⟨S1x64x64, .f32⟩
  | .local _ .vmem, ⟨3, _⟩ => ⟨S1x64x64, .f32⟩
  | .local _ .vmem, ⟨4, _⟩ => ⟨S1x1x64, .f32⟩
  | .local _ .vmem, ⟨5, _⟩ => ⟨S1x1x64, .f32⟩
  | .local _ .vmem, ⟨6, _⟩ => ⟨S1x8192x64, .f32⟩
  | .local _ .vmem, ⟨7, _⟩ => ⟨S1x8192x64, .f32⟩
  | _, _ => ⟨S128x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![128, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S32x6_S6x32_1_0 : S32x6.Transposes [1, 0] S6x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  transposes_S4096x32_S32x4096_1_0 : S4096x32.Transposes [1, 0] S32x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  shapeCasts_S128x4096_S128x64x64 : S128x4096.ShapeCasts S128x64x64
  transposes_S64x6_S6x64_1_0 : S64x6.Transposes [1, 0] S6x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  shapeCasts_S128x64_S128x1x64 : S128x64.ShapeCasts S128x1x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  transposes_S64x64_p1_0_S64x64 : S64x64.Transposes [1, 0] S64x64
  shapeCasts_S64_S1x64 : S64.ShapeCasts S1x64
  broadcasts_S1x64_S8192x64 : S1x64.Broadcasts S8192x64
  shapeCasts_S8192x64_S1x8192x64 : S8192x64.ShapeCasts S1x8192x64
  dot_S128x6_S6x32_S128x32_1_0_0_1_n_n_wf : DotDims.WF S128x6 S6x32 S128x32 [1] [0] [0] [1] [] []
  dot_S128x32_S32x4096_S128x4096_1_0_0_1_n_n_wf : DotDims.WF S128x32 S32x4096 S128x4096 [1] [0] [0] [1] [] []
  dot_S128x6_S6x64_S128x64_1_0_0_1_n_n_wf : DotDims.WF S128x6 S6x64 S128x64 [1] [0] [0] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S128x8192x64.size a
  hwx0_0 : ∀ i : grid0.Coords, EltTy.bits .f32 = 32 ∨ (Rect.block (s := S128x8192x64) S1x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S128x64x64.size a
  hwx0_1 : ∀ i : grid0.Coords, EltTy.bits .f32 = 32 ∨ (Rect.block (s := S128x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S128x1x64.size a
  hwx0_2 : ∀ i : grid0.Coords, EltTy.bits .f32 = 32 ∨ (Rect.block (s := S128x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x64.size a ≤ S128x8192x64.size a
  hwx0_3 : ∀ i : grid0.Coords, EltTy.bits .f32 = 32 ∨ (Rect.block (s := S128x8192x64) S1x8192x64.size (cc0_transform_3 i) (hinb0_3 i)).WholeWords (EltTy.packing .f32)

variable [Facts₀]

def dot_S128x6_S6x32_S128x32_1_0_0_1_n_n : DotDims S128x6 S6x32 S128x32 where
  lhsContracting := [1]
  rhsContracting := [0]
  lhsNonContracting := [0]
  rhsNonContracting := [1]
  lhsBatch := []
  rhsBatch := []
  wf := dot_S128x6_S6x32_S128x32_1_0_0_1_n_n_wf
def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S128x6_S6x64_S128x64_1_0_0_1_n_n : DotDims S128x6 S6x64 S128x64 where
  lhsContracting := [1]
  rhsContracting := [0]
  lhsNonContracting := [0]
  rhsNonContracting := [1]
  lhsBatch := []
  rhsBatch := []
  wf := dot_S128x6_S6x64_S128x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x8192x64 : Shape := ⟨3, ![128, 8192, 64]⟩
abbrev S128x6 : Shape := ⟨2, ![128, 6]⟩
abbrev S32x6 : Shape := ⟨2, ![32, 6]⟩
abbrev S32 : Shape := ⟨1, ![32]⟩
abbrev S4096x32 : Shape := ⟨2, ![4096, 32]⟩
abbrev S4096 : Shape := ⟨1, ![4096]⟩
abbrev S64x6 : Shape := ⟨2, ![64, 6]⟩
abbrev S64 : Shape := ⟨1, ![64]⟩
abbrev S6x32 : Shape := ⟨2, ![6, 32]⟩
abbrev S128x32 : Shape := ⟨2, ![128, 32]⟩
abbrev S1x32 : Shape := ⟨2, ![1, 32]⟩
abbrev S_ : Shape := ⟨0, ![]⟩
abbrev S32x4096 : Shape := ⟨2, ![32, 4096]⟩
abbrev S128x4096 : Shape := ⟨2, ![128, 4096]⟩
abbrev S1x4096 : Shape := ⟨2, ![1, 4096]⟩
abbrev S128x64x64 : Shape := ⟨3, ![128, 64, 64]⟩
abbrev S6x64 : Shape := ⟨2, ![6, 64]⟩
abbrev S128x64 : Shape := ⟨2, ![128, 64]⟩
abbrev S1x64 : Shape := ⟨2, ![1, 64]⟩
abbrev S128x1x64 : Shape := ⟨3, ![128, 1, 64]⟩

abbrev nBuf : Space → Nat
  | .hbm => 31
  | .vmem => 0
  | .smem => 0
  | _ => 0

abbrev bufTy : (tb : Table) → Fin (tcTables nBuf tb) → BufTy
  | .hbm, ⟨0, _⟩ => ⟨S128x8192x64, .f32⟩
  | .hbm, ⟨1, _⟩ => ⟨S128x6, .f32⟩
  | .hbm, ⟨2, _⟩ => ⟨S32x6, .f32⟩
  | .hbm, ⟨3, _⟩ => ⟨S32, .f32⟩
  | .hbm, ⟨4, _⟩ => ⟨S4096x32, .f32⟩
  | .hbm, ⟨5, _⟩ => ⟨S4096, .f32⟩
  | .hbm, ⟨6, _⟩ => ⟨S64x6, .f32⟩
  | .hbm, ⟨7, _⟩ => ⟨S64, .f32⟩
  | .hbm, ⟨8, _⟩ => ⟨S6x32, .f32⟩
  | .hbm, ⟨9, _⟩ => ⟨S128x32, .f32⟩
  | .hbm, ⟨10, _⟩ => ⟨S1x32, .f32⟩
  | .hbm, ⟨11, _⟩ => ⟨S128x32, .f32⟩
  | .hbm, ⟨12, _⟩ => ⟨S128x32, .f32⟩
  | .hbm, ⟨13, _⟩ => ⟨S_, .f32⟩
  | .hbm, ⟨14, _⟩ => ⟨S128x32, .f32⟩
  | .hbm, ⟨15, _⟩ => ⟨S128x32, .f32⟩
  | .hbm, ⟨16, _⟩ => ⟨S32x4096, .f32⟩
  | .hbm, ⟨17, _⟩ => ⟨S128x4096, .f32⟩
  | .hbm, ⟨18, _⟩ => ⟨S1x4096, .f32⟩
  | .hbm, ⟨19, _⟩ => ⟨S128x4096, .f32⟩
  | .hbm, ⟨20, _⟩ => ⟨S128x4096, .f32⟩
  | .hbm, ⟨21, _⟩ => ⟨S128x64x64, .f32⟩
  | .hbm, ⟨22, _⟩ => ⟨S6x64, .f32⟩
  | .hbm, ⟨23, _⟩ => ⟨S128x64, .f32⟩
  | .hbm, ⟨24, _⟩ => ⟨S1x64, .f32⟩
  | .hbm, ⟨25, _⟩ => ⟨S128x64, .f32⟩
  | .hbm, ⟨26, _⟩ => ⟨S128x64, .f32⟩
  | .hbm, ⟨27, _⟩ => ⟨S128x8192x64, .f32⟩
  | .hbm, ⟨28, _⟩ => ⟨S128x1x64, .f32⟩
  | .hbm, ⟨29, _⟩ => ⟨S128x8192x64, .f32⟩
  | .hbm, ⟨30, _⟩ => ⟨S128x8192x64, .f32⟩
  | _, _ => ⟨S128x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  transposes_S32x6_S6x32_1_0 : S32x6.Transposes [1, 0] S6x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  transposes_S4096x32_S32x4096_1_0 : S4096x32.Transposes [1, 0] S32x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  shapeCasts_S128x4096_S128x64x64 : S128x4096.ShapeCasts S128x64x64
  transposes_S64x6_S6x64_1_0 : S64x6.Transposes [1, 0] S6x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S128x64_S128x1x64_0_2 : S128x64.BroadcastsInDim S128x1x64 (![0, 2] : Fin 2 → Fin S128x1x64.rank)
  bcast_S128x1x64_S128x8192x64_0_1_2 : S128x1x64.BroadcastsInDim S128x8192x64 (![0, 1, 2] : Fin 3 → Fin S128x8192x64.rank)
  dot_S128x6_S6x32_S128x32_1_0_0_1_n_n_wf : DotDims.WF S128x6 S6x32 S128x32 [1] [0] [0] [1] [] []
  dot_S128x32_S32x4096_S128x4096_1_0_0_1_n_n_wf : DotDims.WF S128x32 S32x4096 S128x4096 [1] [0] [0] [1] [] []
  dot_S128x6_S6x64_S128x64_1_0_0_1_n_n_wf : DotDims.WF S128x6 S6x64 S128x64 [1] [0] [0] [1] [] []
  dot_S128x8192x64_S128x64x64_S128x8192x64_2_2_1_1_0_0_wf : DotDims.WF S128x8192x64 S128x64x64 S128x8192x64 [2] [2] [1] [1] [0] [0]

variable [Facts₀]

def dot_S128x6_S6x32_S128x32_1_0_0_1_n_n : DotDims S128x6 S6x32 S128x32 where
  lhsContracting := [1]
  rhsContracting := [0]
  lhsNonContracting := [0]
  rhsNonContracting := [1]
  lhsBatch := []
  rhsBatch := []
  wf := dot_S128x6_S6x32_S128x32_1_0_0_1_n_n_wf
def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S128x6_S6x64_S128x64_1_0_0_1_n_n : DotDims S128x6 S6x64 S128x64 where
  lhsContracting := [1]
  rhsContracting := [0]
  lhsNonContracting := [0]
  rhsNonContracting := [1]
  lhsBatch := []
  rhsBatch := []
  wf := dot_S128x6_S6x64_S128x64_1_0_0_1_n_n_wf
def dot_S128x8192x64_S128x64x64_S128x8192x64_2_2_1_1_0_0 : DotDims S128x8192x64 S128x64x64 S128x8192x64 where
  lhsContracting := [2]
  rhsContracting := [2]
  lhsNonContracting := [1]
  rhsNonContracting := [1]
  lhsBatch := [0]
  rhsBatch := [0]
  wf := dot_S128x8192x64_S128x64x64_S128x8192x64_2_2_1_1_0_0_wf

class Facts : Prop extends Facts₀ where

variable [Facts]
-- ==== Proof.Spec.lean ====
/-
  The function both programs compute, stated once over literal shapes.

  A per-sample channel mixing: for each sample `b` a 64-by-64 matrix `W[b]` and a 64-vector `bias[b]`
  act on every one of the 8192 positions of that sample,

      out[b, w, o] = (∑ c, x[b, w, c] * W[b, o, c]) + bias[b, o]

  on the extended reals. The sum runs over the 64 input channels in one fixed order on both sides, and the bias
  is added after the sum on both sides, so no law of the extended reals beyond reading the two programs at an
  index is needed: in particular nothing here uses that the inputs are finite.
-/
import Idealize.ShloMosaic.PureOps.Ideal
import Idealize.ShloMosaic.Lib.ValueIdx

noncomputable section

open scoped BigOperators

namespace Cert.HyperConv

open Idealize.ShloMosaic Idealize.ShloMosaic.ValueIdx

/-- Entry `(b, w, o)` of the result: position `w` of sample `b` mixed by row `o` of that sample's matrix,
    plus entry `o` of that sample's bias. -/
def conv (x : (⟨3, ![128, 8192, 64]⟩ : Shape).Idx → EReal) (W : (⟨3, ![128, 64, 64]⟩ : Shape).Idx → EReal)
    (bias : (⟨2, ![128, 64]⟩ : Shape).Idx → EReal) : (⟨3, ![128, 8192, 64]⟩ : Shape).Idx → EReal :=
  fun i => (∑ k : Fin 64, x (ix3 (i 0) (i 1) k) * W (ix3 (i 0) (i 2) k)) + bias (ix2 (i 0) (i 2))

theorem conv_apply (x : (⟨3, ![128, 8192, 64]⟩ : Shape).Idx → EReal) (W : (⟨3, ![128, 64, 64]⟩ : Shape).Idx → EReal)
    (bias : (⟨2, ![128, 64]⟩ : Shape).Idx → EReal) (b : Fin 128) (w : Fin 8192) (o : Fin 64) :
    conv x W bias (ix3 b w o) = (∑ k : Fin 64, x (ix3 b w k) * W (ix3 b o k)) + bias (ix2 b o) := rfl

end Cert.HyperConv

end
-- ==== Proof.RefSide.lean ====
/-
  The reference, read at an index.

  Its last three operations are a batched contraction of `x` with the per-sample matrices over the channel
  axis (batch axis 0 of both, axis 2 of both contracted), the per-sample bias given a unit position axis and
  repeated along the 8192 positions, and their sum. Entry `(b, w, o)` is therefore
  `(∑ c, x[b, w, c] * W[b, o, c]) + bias[b, o]`, with `W` and `bias` the values the earlier operations
  produce; those are left unopened here.
-/
import proofs.«138537_j28802050687329_1_alg».proof.Proof.Gen.ReferenceIdeal.Read
import proofs.«138537_j28802050687329_1_alg».proof.Proof.Spec

noncomputable section

open scoped BigOperators

namespace Cert.ReferenceIdeal.RefValue

open Cert.ReferenceIdeal Cert.ReferenceIdeal.Read Idealize.ShloMosaic Idealize.ShloMosaic.ValueIdx

/-- The left operand of the contraction is read at `(b, w, k)`. -/
theorem lidx_eq (i : S128x8192x64.Idx) (k : Fin 64) : lidx_main_v17 i k = ix3 (i 0) (i 1) k :=
  funext fun a => Fin.ext (by match a with | ⟨0, _⟩ => rfl | ⟨1, _⟩ => rfl | ⟨2, _⟩ => rfl)

/-- The right operand of the contraction is read at `(b, o, k)`. -/
theorem ridx_eq (i : S128x8192x64.Idx) (k : Fin 64) : ridx_main_v17 i k = ix3 (i 0) (i 2) k :=
  funext fun a => Fin.ext (by match a with | ⟨0, _⟩ => rfl | ⟨1, _⟩ => rfl | ⟨2, _⟩ => rfl)

/-- The repeated bias is read at `(b, o)`: the position coordinate is dropped. -/
theorem bidx_eq (i : S128x8192x64.Idx) : idx_main_v18 (idx_main_v19 i) = ix2 (i 0) (i 2) :=
  funext fun a => Fin.ext (by match a with | ⟨0, _⟩ => rfl | ⟨1, _⟩ => rfl)

/-- The reference's result is the channel mixing of `x` by the matrices and the bias its earlier operations
    compute. -/
theorem result_eq (x0 : (⟨S128x8192x64, .f32⟩ : BufTy).Contents (Elt Ideal)) (x1 : (⟨S128x6, .f32⟩ : BufTy).Contents (Elt Ideal))
    (x2 : (⟨S32x6, .f32⟩ : BufTy).Contents (Elt Ideal)) (x3 : (⟨S32, .f32⟩ : BufTy).Contents (Elt Ideal))
    (x4 : (⟨S4096x32, .f32⟩ : BufTy).Contents (Elt Ideal)) (x5 : (⟨S4096, .f32⟩ : BufTy).Contents (Elt Ideal))
    (x6 : (⟨S64x6, .f32⟩ : BufTy).Contents (Elt Ideal)) (x7 : (⟨S64, .f32⟩ : BufTy).Contents (Elt Ideal)) :
    val_main_v20 (F := Ideal) x0 x1 x2 x3 x4 x5 x6 x7
      = Cert.HyperConv.conv x0 (val_main_v11 (F := Ideal) x1 x2 x3 x4 x5) (val_main_v16 (F := Ideal) x1 x6 x7) := by
  funext i
  rw [val_main_v20_apply, val_main_v17_apply, val_main_v19_apply, val_main_v18_apply, bidx_eq]
  simp only [lidx_eq, ridx_eq]
  rfl

end Cert.ReferenceIdeal.RefValue

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Body.lean ====
/-
  One grid point's arithmetic, read at an index.

  The body loads a `[1, 8192, 64]` block of `x`, a `[1, 64, 64]` block of matrices and a `[1, 1, 64]` block
  of bias, drops the leading unit axes, multiplies the 8192-by-64 block with the TRANSPOSE of the 64-by-64 matrix
  into a zero accumulator, adds the bias row to every row, and puts the unit axis back. On the extended reals a
  change of float format is the identity and the product into zero is the plain sum, so entry `(u, w, o)` of
  what it stores is `(∑ k, x[0, w, k] * W[0, o, k]) + bias[0, 0, o]`.
-/
import proofs.«138537_j28802050687329_1_alg».proof.Proof.Gen.KernelIdeal.Skeleton
import proofs.«138537_j28802050687329_1_alg».proof.Proof.LibPlainDot
import proofs.«138537_j28802050687329_1_alg».proof.Proof.LibKeepdims
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The printed contraction record is the plain one: rows by contraction, contraction by columns. -/
theorem dot_plain : dot_S8192x64_S64x64_S8192x64_1_0_0_1_n_n = DotDims.plain 8192 64 64 := rfl

/-- The block product at `(w, o)`: row `w` of the `x` block against row `o` of the matrix (column `o` of its
    transpose). -/
theorem product_apply (v0 : Vec Ideal S1x8192x64 .f32) (v3 : Vec Ideal S1x64x64 .f32) (w : Fin 8192) (o : Fin 64) :
    matmul (F := Ideal) dot_S8192x64_S64x64_S8192x64_1_0_0_1_n_n none
        (truncf .bf16 (shapeCast S8192x64 v0 shapeCasts_S1x8192x64_S8192x64) bitsLt_bf16_f32)
        (transpose S64x64 [1, 0] (truncf .bf16 (shapeCast S64x64 v3 shapeCasts_S1x64x64_S64x64) bitsLt_bf16_f32) transposes_S64x64_p1_0_S64x64)
        (constant S8192x64 .f32 0x00000000#32) (ix2 w o)
      = ∑ k : Fin 64, v0 (ix3 (0 : Fin 1) w k) * v3 (ix3 (0 : Fin 1) o k) := by
  refine (Cert.PlainDot.matmul_zero_apply _ dot_plain none _ _ (ix2 w o)).trans ?_
  refine Finset.sum_congr rfl fun k _ => ?_
  refine congrArg₂ (· * ·) ?_ ?_
  · exact shapeCast_1ab_ab_apply v0 shapeCasts_S1x8192x64_S8192x64 w k
  · exact (transpose_ix2_apply _ transposes_S64x64_p1_0_S64x64 k o).trans
      (shapeCast_1ab_ab_apply v3 shapeCasts_S1x64x64_S64x64 o k)

/-- The bias row repeated down the 8192 rows, at `(w, o)`: entry `o` of the loaded bias block. -/
theorem bias_apply (v6 : Vec Ideal S1x1x64 .f32) (w : Fin 8192) (o : Fin 64) :
    broadcastTo S8192x64 (shapeCast S1x64 (shapeCast S64 v6 shapeCasts_S1x1x64_S64) shapeCasts_S64_S1x64) broadcasts_S1x64_S8192x64 (ix2 w o)
      = v6 (ix3 (0 : Fin 1) (0 : Fin 1) o) :=
  (broadcastTo_1b_ab_apply _ broadcasts_S1x64_S8192x64 w o).trans
    ((shapeCast_a_1a_apply _ shapeCasts_S64_S1x64 (0 : Fin 1) o).trans
      (Cert.Keepdims.shapeCast_11a_a_apply v6 shapeCasts_S1x1x64_S64 o))

/-- What the body stores, at `(u, w, o)` of the output block. -/
theorem pay_apply (v0 : Vec Ideal S1x8192x64 .f32) (v3 : Vec Ideal S1x64x64 .f32) (v6 : Vec Ideal S1x1x64 .f32)
    (u : Fin 1) (w : Fin 8192) (o : Fin 64) :
    k0_pay1 (F := Ideal) v0 v3 v6 (ix3 u w o)
      = (∑ k : Fin 64, v0 (ix3 (0 : Fin 1) w k) * v3 (ix3 (0 : Fin 1) o k)) + v6 (ix3 (0 : Fin 1) (0 : Fin 1) o) := by
  unfold k0_pay1
  refine (shapeCast_ab_1ab_apply _ shapeCasts_S8192x64_S1x8192x64 u w o).trans ?_
  exact congrArg₂ (· + ·) (product_apply v0 v3 w o) (bias_apply v6 w o)

end Cert.KernelIdeal.Body

end
-- ==== Proof.KernelValue.lean ====
/-
  From grid points to the whole result array.

  The grid has 128 points, one per sample: point `t` fetches block `(t, 0, 0)` of `x` (all 8192 positions of
  sample `t`), block `(t, 0, 0)` of the matrices (sample `t`'s 64-by-64 matrix) and block `(t, 0, 0)` of the bias
  (sample `t`'s row), and writes back block `(t, 0, 0)` of the result. Inside a block the coordinate on an axis is
  block index times block size plus the offset, so on axis 0 every block sits at sample `t` and on the other axes
  at offset zero. Hence what point `t` writes back is block `t` of ONE whole-array function of the three arrays
  the launch is given, and since the 128 blocks tile the result array, the array ends equal to that function.
-/
import proofs.«138537_j28802050687329_1_alg».proof.Proof.Gen.KernelIdeal.Value
import proofs.«138537_j28802050687329_1_alg».proof.Proof.Body

noncomputable section

open scoped BigOperators

namespace Cert.KernelIdeal.ConvValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin_zero : (![0, 0, 0] : Fin 3 → Nat) = fun _ => 0 := funext fun a => by fin_cases a <;> rfl

/-- The launch's result as one function of the three arrays it is given: the activations, the per-sample
    matrices, and the per-sample bias carried with a unit position axis. -/
abbrev launched (x : S128x8192x64.Idx → EReal) (W : S128x64x64.Idx → EReal) (b3 : S128x1x64.Idx → EReal) :
    S128x8192x64.Idx → EReal :=
  fun i => (∑ k : Fin 64, x (ix3 (i 0) (i 1) k) * W (ix3 (i 0) (i 2) k)) + b3 (ix3 (i 0) (0 : Fin 1) (i 2))

/-- The printed index maps over the 128 points: every window's block index is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- One point's arithmetic is the whole-array function at the matching array index, once each loaded block is
    known to be its array read at sample `b`. Stated over plain blocks and indices. -/
theorem point_eq (x : S128x8192x64.Idx → EReal) (W : S128x64x64.Idx → EReal) (b3 : S128x1x64.Idx → EReal)
    (xb : Vec Ideal S1x8192x64 .f32) (Wb : Vec Ideal S1x64x64 .f32) (bb : Vec Ideal S1x1x64 .f32) (b : Fin 128)
    (hx : ∀ (w : Fin 8192) (k : Fin 64), xb (ix3 (0 : Fin 1) w k) = x (ix3 b w k))
    (hW : ∀ (o : Fin 64) (k : Fin 64), Wb (ix3 (0 : Fin 1) o k) = W (ix3 b o k))
    (hb : ∀ o : Fin 64, bb (ix3 (0 : Fin 1) (0 : Fin 1) o) = b3 (ix3 b (0 : Fin 1) o))
    (j : S1x8192x64.Idx) (i : S128x8192x64.Idx)
    (h0 : (i 0).val = b.val) (h1 : (i 1).val = (j 1).val) (h2 : (i 2).val = (j 2).val) :
    k0_pay1 (F := Ideal) xb Wb bb j = launched x W b3 i := by
  obtain ⟨u, w, o, rfl⟩ : ∃ (u : Fin 1) (w : Fin 8192) (o : Fin 64), j = ix3 u w o := ⟨j 0, j 1, j 2, eq_ix3 j⟩
  have hi : i = ix3 b w o := by
    funext a
    apply Fin.ext
    match a with
    | ⟨0, _⟩ => exact h0
    | ⟨1, _⟩ => exact h1
    | ⟨2, _⟩ => exact h2
  subst hi
  rw [Cert.KernelIdeal.Body.pay_apply]
  show _ = (∑ k : Fin 64, x (ix3 b w k) * W (ix3 b o k)) + b3 (ix3 b (0 : Fin 1) o)
  rw [hb o]
  exact congrArg (· + _) (Finset.sum_congr rfl fun k _ => by rw [hx w k, hW o k])

/-- What point `t` writes back is block `t` of the whole-array function of the arrays as the launch finds them. -/
theorem flushed_eq (c : Dev nD) (t : Fin cfg0.N) :
    (dats m 0 c).flushed 3 t
      = ((cfg0.win 3).blk t).view.read (Elt Ideal) (launched (V m c main_arg0) (V m c main_v11) (V m c main_v17)) := by
  rw [Value.flushed3]
  unfold out0_3
  rw [View.canon_unit_zero origin_zero]
  simp only [View.ld_unit_zero (S := S1x8192x64) origin_zero, View.ld_unit_zero (S := S1x64x64) origin_zero,
    View.ld_unit_zero (S := S1x1x64) origin_zero]
  obtain ⟨a00, a01, a02, a10, a11, a12, a20, a21, a22, a30, a31, a32⟩ := idx_facts t
  have ht : t.val < 128 := lt_of_lt_of_eq t.isLt N_0
  funext j
  refine point_eq (V m c main_arg0) (V m c main_v11) (V m c main_v17) (iblk m c 0 t) (iblk m c 1 t) (iblk m c 2 t)
    ⟨t.val, ht⟩ ?_ ?_ ?_ j (((cfg0.win 3).blk t).view.emb j) ?_ ?_ ?_
  · intro w k
    show V m c main_arg0 (((cfg0.win 0).blk t).view.emb (ix3 (0 : Fin 1) w k)) = V m c main_arg0 (ix3 ⟨t.val, ht⟩ w k)
    refine congrArg _ (funext fun a => Fin.ext ?_)
    match a with
    | ⟨0, _⟩ => show win0_0.index t (0 : Fin 3) * 1 + 1 * 0 = t.val; omega
    | ⟨1, _⟩ => show win0_0.index t (1 : Fin 3) * 8192 + 1 * w.val = w.val; omega
    | ⟨2, _⟩ => show win0_0.index t (2 : Fin 3) * 64 + 1 * k.val = k.val; omega
  · intro o k
    show V m c main_v11 (((cfg0.win 1).blk t).view.emb (ix3 (0 : Fin 1) o k)) = V m c main_v11 (ix3 ⟨t.val, ht⟩ o k)
    refine congrArg _ (funext fun a => Fin.ext ?_)
    match a with
    | ⟨0, _⟩ => show win0_1.index t (0 : Fin 3) * 1 + 1 * 0 = t.val; omega
    | ⟨1, _⟩ => show win0_1.index t (1 : Fin 3) * 64 + 1 * o.val = o.val; omega
    | ⟨2, _⟩ => show win0_1.index t (2 : Fin 3) * 64 + 1 * k.val = k.val; omega
  · intro o
    show V m c main_v17 (((cfg0.win 2).blk t).view.emb (ix3 (0 : Fin 1) (0 : Fin 1) o)) = V m c main_v17 (ix3 ⟨t.val, ht⟩ (0 : Fin 1) o)
    refine congrArg _ (funext fun a => Fin.ext ?_)
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 64 + 1 * o.val = o.val; omega
  · show win0_3.index t (0 : Fin 3) * 1 + 1 * (j 0).val = t.val
    have hj : (j 0).val < 1 := (j 0).isLt
    omega
  · show win0_3.index t (1 : Fin 3) * 8192 + 1 * (j 1).val = (j 1).val
    omega
  · show win0_3.index t (2 : Fin 3) * 64 + 1 * (j 2).val = (j 2).val
    omega

/-- An index of the result array is in point `t`'s block iff each coordinate is in the block's range on its axis. -/
theorem mem_blk (t : Fin cfg0.N) (i : S128x8192x64.Idx) :
    i ∈ ((cfg0.win 3).blk t).view.set ↔ ∀ a : Fin 3, win0_3.index t a * S1x8192x64.size a ≤ (i a).val
      ∧ (i a).val < win0_3.index t a * S1x8192x64.size a + S1x8192x64.size a := by
  show i ∈ ((View.whole main_v18).slice (win0_3.rect t)).set ↔ _
  rw [View.set_slice_whole, Rect.mem_set_unit]
  exact Iff.rfl

/-- The 128 blocks tile the result array: index `(b, w, o)` lies in the block of point `b`. -/
theorem cover (i : S128x8192x64.Idx) :
    ∃ t : Fin cfg0.N, (cfg0.win 3).flush t = true ∧ i ∈ ((cfg0.win 3).blk t).view.set := by
  have hi0 : (i 0).val < 128 := (i 0).isLt
  have hi1 : (i 1).val < 8192 := (i 1).isLt
  have hi2 : (i 2).val < 64 := (i 2).isLt
  have hN : (i 0).val < cfg0.N := lt_of_lt_of_eq hi0 N_0.symm
  refine ⟨⟨(i 0).val, hN⟩, flush0_3 _, ?_⟩
  rw [mem_blk]
  obtain ⟨-, -, -, -, -, -, -, -, -, a30, a31, a32⟩ := idx_facts ⟨(i 0).val, hN⟩
  have e0 : win0_3.index ⟨(i 0).val, hN⟩ (0 : Fin 3) = (i 0).val := a30
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    omega
  | ⟨1, _⟩ =>
    show win0_3.index ⟨(i 0).val, hN⟩ (1 : Fin 3) * 8192 ≤ (i 1).val ∧ (i 1).val < win0_3.index ⟨(i 0).val, hN⟩ (1 : Fin 3) * 8192 + 8192
    omega
  | ⟨2, _⟩ =>
    show win0_3.index ⟨(i 0).val, hN⟩ (2 : Fin 3) * 64 ≤ (i 2).val ∧ (i 2).val < win0_3.index ⟨(i 0).val, hN⟩ (2 : Fin 3) * 64 + 64
    omega

/-- The result array after the launch is the whole-array function of the arrays the launch finds. -/
theorem final (c : Dev nD) :
    (dats m 0 c).arrAt 3 cfg0.N = launched (V m c main_arg0) (V m c main_v11) (V m c main_v17) :=
  (dats m 0 c).arrAt_eq_of_cover 3 _ (fun t _ => flushed_eq m c t) cover

end Cert.KernelIdeal.ConvValue

end
-- ==== Proof.HostPrelude.lean ====
/-
  The small network that runs before the launch, on both sides.

  Both programs first compute, from the conditioning vector of each sample, that sample's 64-by-64 matrix
  (two affine layers with a rectifier between them, the 4096 outputs regrouped as 64 rows of 64) and its bias
  row (one affine layer). The two programs spell this with the same operations on the same operands, so the
  two terms are one term. The kernel's program then regroups the bias `[128, 64]` as `[128, 1, 64]` for its
  launch; read at `(b, 0, o)` that is the bias at `(b, o)`.
-/
import proofs.«138537_j28802050687329_1_alg».proof.Proof.Gen.KernelIdeal.Frame
import proofs.«138537_j28802050687329_1_alg».proof.Proof.Gen.ReferenceIdeal.Read
import Idealize.ShloMosaic.Lib.StableHlo.Run

noncomputable section

namespace Cert.KernelIdeal.Prelude

open Cert.KernelIdeal Cert.KernelIdeal.Gen Idealize.ShloMosaic Idealize.ShloMosaic.TcCoe Idealize.SL.Sem
open Idealize.ShloMosaic.StableHlo

/-- The per-sample matrices, as the kernel's program computes them before its launch. -/
def mats (x1 : FVec Ideal S128x6 .f32) (x2 : FVec Ideal S32x6 .f32) (x3 : FVec Ideal S32 .f32)
    (x4 : FVec Ideal S4096x32 .f32) (x5 : FVec Ideal S4096 .f32) : FVec Ideal S128x64x64 .f32 :=
  shapeCast S128x64x64
    (addf
      (Host.dotGeneral dot_S128x32_S32x4096_S128x4096_1_0_0_1_n_n none
        (maximumf
          (addf
            (Host.dotGeneral dot_S128x6_S6x32_S128x32_1_0_0_1_n_n none x1 (transpose S6x32 [1, 0] x2 transposes_S32x6_S6x32_1_0))
            (broadcastInDim S128x32 ![0, 1] bcast_S1x32_S128x32_0_1 (broadcastInDim S1x32 ![1] bcast_S32_S1x32_1 x3)))
          (broadcastInDim S128x32 ![] bcast_S_S128x32 (constant (F := Ideal) S_ .f32 0x00000000#32)))
        (transpose S32x4096 [1, 0] x4 transposes_S4096x32_S32x4096_1_0))
      (broadcastInDim S128x4096 ![0, 1] bcast_S1x4096_S128x4096_0_1 (broadcastInDim S1x4096 ![1] bcast_S4096_S1x4096_1 x5)))
    shapeCasts_S128x4096_S128x64x64

/-- The per-sample bias rows, as the kernel's program computes them before its launch. -/
def biases (x1 : FVec Ideal S128x6 .f32) (x6 : FVec Ideal S64x6 .f32) (x7 : FVec Ideal S64 .f32) : FVec Ideal S128x64 .f32 :=
  addf
    (Host.dotGeneral dot_S128x6_S6x64_S128x64_1_0_0_1_n_n none x1 (transpose S6x64 [1, 0] x6 transposes_S64x6_S6x64_1_0))
    (broadcastInDim S128x64 ![0, 1] bcast_S1x64_S128x64_0_1 (broadcastInDim S1x64 ![1] bcast_S64_S1x64_1 x7))

variable (m : (ℓ : Loc nD τ sig) → Buf (Elt Ideal) ℓ)

/-- The launch finds the matrices in its second operand. -/
theorem V_mats (c : Dev nD) :
    (V m c main_v11 : S128x64x64.Idx → EReal)
      = mats (m ((c : Thread nD τ).loc main_arg1)) (m ((c : Thread nD τ).loc main_arg2)) (m ((c : Thread nD τ).loc main_arg3))
          (m ((c : Thread nD τ).loc main_arg4)) (m ((c : Thread nD τ).loc main_arg5)) := by
  dsimp only [V]
  simp only [hostOps0, hostOps0_1, hostOps0_2, List.flatten_cons, List.flatten_nil, List.append_nil, List.cons_append,
    List.nil_append]
  after_results
  rfl

/-- The launch finds the bias rows, regrouped with a unit position axis, in its third operand. -/
theorem V_bias (c : Dev nD) :
    (V m c main_v17 : S128x1x64.Idx → EReal)
      = shapeCast S128x1x64
          (biases (m ((c : Thread nD τ).loc main_arg1)) (m ((c : Thread nD τ).loc main_arg6)) (m ((c : Thread nD τ).loc main_arg7)))
          shapeCasts_S128x64_S128x1x64 := by
  dsimp only [V]
  simp only [hostOps0, hostOps0_1, hostOps0_2, List.flatten_cons, List.flatten_nil, List.append_nil, List.cons_append,
    List.nil_append]
  after_results
  rfl

/-- The kernel's program and the reference compute the matrices by the same term. -/
theorem mats_eq_ref (x1 : FVec Ideal S128x6 .f32) (x2 : FVec Ideal S32x6 .f32) (x3 : FVec Ideal S32 .f32)
    (x4 : FVec Ideal S4096x32 .f32) (x5 : FVec Ideal S4096 .f32) :
    mats x1 x2 x3 x4 x5 = Cert.ReferenceIdeal.Read.val_main_v11 (F := Ideal) x1 x2 x3 x4 x5 := rfl

/-- The kernel's program and the reference compute the bias rows by the same term. -/
theorem biases_eq_ref (x1 : FVec Ideal S128x6 .f32) (x6 : FVec Ideal S64x6 .f32) (x7 : FVec Ideal S64 .f32) :
    biases x1 x6 x7 = Cert.ReferenceIdeal.Read.val_main_v16 (F := Ideal) x1 x6 x7 := rfl

end Cert.KernelIdeal.Prelude

end
-- ==== Proof.KernelRun.lean ====
/-
  The kernel's program, end to end.

  The launch leaves in its result array the whole-array function of the three arrays it is given. Two of
  those are what the host operations before it computed: the per-sample matrices, and the per-sample bias rows
  regrouped `[128, 64] → [128, 1, 64]`. Reading the regrouped bias at `(b, 0, o)` gives the bias at `(b, o)`, so
  the result array is the per-sample channel mixing of `x` by those matrices and bias rows.
-/
import proofs.«138537_j28802050687329_1_alg».proof.Proof.KernelValue
import proofs.«138537_j28802050687329_1_alg».proof.Proof.HostPrelude
import proofs.«138537_j28802050687329_1_alg».proof.Proof.Spec

noncomputable section

open scoped BigOperators

namespace Cert.KernelIdeal.ConvRun

open Cert.KernelIdeal Cert.KernelIdeal.Gen Idealize.ShloMosaic Idealize.ShloMosaic.TcCoe Idealize.SL.Sem
open Idealize.ShloMosaic.ValueIdx

/-- With the bias carried on a unit position axis, the launch's function is the channel mixing. -/
theorem launched_eq_conv (x : S128x8192x64.Idx → EReal) (W : S128x64x64.Idx → EReal) (bias : S128x64.Idx → EReal) :
    ConvValue.launched x W (shapeCast S128x1x64 bias shapeCasts_S128x64_S128x1x64) = Cert.HyperConv.conv x W bias := by
  funext i
  unfold Cert.HyperConv.conv
  exact congrArg (fun z => (∑ k : Fin 64, x (ix3 (i 0) (i 1) k) * W (ix3 (i 0) (i 2) k)) + z)
    (Cert.Keepdims.shapeCast_ab_a1b_apply bias shapeCasts_S128x64_S128x1x64 (i 0) (0 : Fin 1) (i 2))

variable (m : (ℓ : Loc nD τ sig) → Buf (Elt Ideal) ℓ) (ρ : Dev nD → PrngReg)

/-- The result array after the launch, as a function of the program's arguments. -/
theorem final_conv (c : Dev nD) :
    (dats m 0 c).arrAt 3 cfg0.N
      = Cert.HyperConv.conv (m ((c : Thread nD τ).loc main_arg0))
          (Prelude.mats (m ((c : Thread nD τ).loc main_arg1)) (m ((c : Thread nD τ).loc main_arg2))
            (m ((c : Thread nD τ).loc main_arg3)) (m ((c : Thread nD τ).loc main_arg4)) (m ((c : Thread nD τ).loc main_arg5)))
          (Prelude.biases (m ((c : Thread nD τ).loc main_arg1)) (m ((c : Thread nD τ).loc main_arg6))
            (m ((c : Thread nD τ).loc main_arg7))) := by
  refine (ConvValue.final m c).trans ?_
  rw [V_main_arg0 m c, Prelude.V_mats m c, Prelude.V_bias m c]
  exact launched_eq_conv _ _ _

/-- Every weakly fair execution of the kernel's program terminates with the result array at the channel mixing of
    its arguments, and the arguments unchanged. -/
theorem run : θ_run defs (onTc (τ := τ) (main (F := Ideal))) ⟨m, fun _ => 0, ρ⟩ fun r => ∀ c : Dev nD,
      r.2.mem ((c : Thread nD τ).loc main_v18)
        = Cert.HyperConv.conv (m ((c : Thread nD τ).loc main_arg0))
            (Prelude.mats (m ((c : Thread nD τ).loc main_arg1)) (m ((c : Thread nD τ).loc main_arg2))
              (m ((c : Thread nD τ).loc main_arg3)) (m ((c : Thread nD τ).loc main_arg4)) (m ((c : Thread nD τ).loc main_arg5)))
            (Prelude.biases (m ((c : Thread nD τ).loc main_arg1)) (m ((c : Thread nD τ).loc main_arg6))
              (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_conv m c), (h c).2⟩) (Value.run_blocks m ρ)

end Cert.KernelIdeal.ConvRun

end
-- ==== Proof.lean ====
/- A per-sample channel mixing, `out[b, w, o] = (∑ c, x[b, w, c] * W[b, o, c]) + bias[b, o]`, where each sample's
   64-by-64 matrix `W[b]` and bias row `bias[b]` come from a small network applied to that sample's conditioning vector.

   The kernel's program runs that network on the host, then one launch over 128 grid points, one per sample: a point
   multiplies the sample's 8192-by-64 activations with the transpose of its matrix and adds its bias row to every
   position. The reference runs the same network, then one batched contraction over the channel axis and a broadcast
   sum. On the extended reals a change of float format is the identity and a matrix product into a zero accumulator is
   the plain sum over the contracted axis, so both results read `(∑ c, x[b, w, c] * W[b, o, c]) + bias[b, o]` at
   every index, the sum over the 64 channels in the same order and the bias added last on both sides; the network's
   term is literally the same on both sides. No algebraic law of the extended reals is used, so the precondition that
   the inputs are finite is never opened.

   The three frames are the generated ones (the reference's is its generated run with the result dropped); the ideal
   pass rewrote nothing, so there is nothing to preserve. -/
import proofs.«138537_j28802050687329_1_alg».proof.Defs
import proofs.«138537_j28802050687329_1_alg».proof.Proof.Gen.Kernel
import proofs.«138537_j28802050687329_1_alg».proof.Proof.Gen.Kernel.Skeleton
import proofs.«138537_j28802050687329_1_alg».proof.Proof.Gen.Kernel.Launch
import proofs.«138537_j28802050687329_1_alg».proof.Proof.Gen.Kernel.Points
import proofs.«138537_j28802050687329_1_alg».proof.Proof.Gen.Kernel.Frame
import proofs.«138537_j28802050687329_1_alg».proof.Proof.Gen.KernelIdeal
import proofs.«138537_j28802050687329_1_alg».proof.Proof.Gen.KernelIdeal.Skeleton
import proofs.«138537_j28802050687329_1_alg».proof.Proof.Gen.KernelIdeal.Launch
import proofs.«138537_j28802050687329_1_alg».proof.Proof.Gen.KernelIdeal.Points
import proofs.«138537_j28802050687329_1_alg».proof.Proof.Gen.KernelIdeal.Frame
import proofs.«138537_j28802050687329_1_alg».proof.Proof.Gen.ReferenceIdeal
import proofs.«138537_j28802050687329_1_alg».proof.Proof.Gen.Pre_finite_inputs
import proofs.«138537_j28802050687329_1_alg».proof.Proof.Gen.KernelIdeal.Value
import proofs.«138537_j28802050687329_1_alg».proof.Proof.Gen.ReferenceIdeal.Run
import proofs.«138537_j28802050687329_1_alg».proof.Proof.Gen.ReferenceIdeal.Read
import proofs.«138537_j28802050687329_1_alg».proof.Proof.RefSide
import proofs.«138537_j28802050687329_1_alg».proof.Proof.KernelRun
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

/-- The reference launches nothing: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the channel mixing of `x` by the matrices and bias rows the shared network computes from
    arguments that agree. -/
theorem algebraic : Cert.algebraic_KernelIdeal_ReferenceIdeal := by
  intro m ρ m' ρ' _ hagree
  refine ⟨_, Cert.KernelIdeal.ConvRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7, Cert.ReferenceIdeal.Read.val_main_v20_eq, Cert.ReferenceIdeal.RefValue.result_eq]
  exact congrArg₂ (Cert.HyperConv.conv _) (Cert.KernelIdeal.Prelude.mats_eq_ref _ _ _ _ _).symm
    (Cert.KernelIdeal.Prelude.biases_eq_ref _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
